-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1024x2048 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S2048x1024 : Shape := ⟨2, ![2048, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S1024, .f32⟩
  | .hbm, ⟨4, _⟩ => ⟨S16384x2048, .f32⟩
  | .hbm, ⟨5, _⟩ => ⟨S2048x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x2048_S2048x1024_S16384x1024_1_0_0_1_n_n_wf : DotDims.WF S16384x2048 S2048x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.CellSpec.lean ====
/-
  The recurrent cell both programs compute, as ONE function of the four argument arrays on the extended reals.
  With x, h : [16384 × 1024], the fused weight W : [1024 × 2048] (row q holds output unit q's weights: columns
  0 … 1023 act on x, columns 1024 … 2047 on h) and the bias b : [1024], entry (p, q) of the result is

      tanh ( ∑_{κ < 1024} x[p, κ] · W[q, κ]  +  ∑_{κ < 1024} h[p, κ] · W[q, 1024 + κ]  +  b[q] ).

  One program forms the two sums apart (against the two transposed halves of W); the other lays x and h side by
  side into a [16384 × 2048] matrix and contracts it once against the transpose of the whole of W. A sum over 2048
  terms is the sum over its first 1024 terms plus the sum over its last 1024: addition of extended reals is
  commutative and associative with the infinities included, so no finiteness is asked of the inputs.
-/
import proofs.«121592_j27049704030527_1_alg».proof.Proof.LibSageSpec

noncomputable section

open scoped BigOperators

namespace Cert.CellSpec

open Idealize.ShloMosaic Idealize.ShloMosaic.ValueIdx Idealize.ShloMosaic.SageSpec

/-- Column κ of the x-half of the fused weight. -/
def lo (κ : Fin 1024) : Fin 2048 := ⟨κ.val, by have := κ.isLt; omega⟩
/-- Column κ of the h-half of the fused weight: 1024 columns further on. -/
def hi (κ : Fin 1024) : Fin 2048 := ⟨κ.val + 1024, by have := κ.isLt; omega⟩

/-- The x-half of the fused weight, transposed: entry (κ, q) is W[q, κ]. -/
def wx (W : Mat 1024 2048) : Mat 1024 1024 := fun i => W (ix2 (i 1) (lo (i 0)))
/-- The h-half of the fused weight, transposed: entry (κ, q) is W[q, 1024 + κ]. -/
def wh (W : Mat 1024 2048) : Mat 1024 1024 := fun i => W (ix2 (i 1) (hi (i 0)))

theorem wx_at (W : Mat 1024 2048) (κ q : Fin 1024) : wx W (ix2 κ q) = W (ix2 q (lo κ)) := rfl
theorem wh_at (W : Mat 1024 2048) (κ q : Fin 1024) : wh W (ix2 κ q) = W (ix2 q (hi κ)) := rfl

/-- The cell's pre-activation at (p, q): x's row against the x-half, h's row against the h-half, the bias. -/
def pre (x h : Mat 16384 1024) (W : Mat 1024 2048) (b : (⟨1, ![1024]⟩ : Shape).Idx → EReal) (p : Fin 16384) (q : Fin 1024) : EReal :=
  rowDot x (wx W) p q + rowDot h (wh W) p q + b (ix1 q)

/-- The cell: tanh of the pre-activation, entry by entry. -/
def cell (x h : Mat 16384 1024) (W : Mat 1024 2048) (b : (⟨1, ![1024]⟩ : Shape).Idx → EReal) : Mat 16384 1024 :=
  fun i => Ideal.tanh (pre x h W b (i 0) (i 1))

theorem cell_at (x h : Mat 16384 1024) (W : Mat 1024 2048) (b : (⟨1, ![1024]⟩ : Shape).Idx → EReal) (p : Fin 16384) (q : Fin 1024) :
    cell x h W b (ix2 p q) = Ideal.tanh (pre x h W b p q) := rfl

/-- A sum over 2048 terms is the sum over the first 1024 plus the sum over the last 1024. -/
theorem sum_halves (f : Fin 2048 → EReal) : ∑ j : Fin 2048, f j = ∑ κ : Fin 1024, f (lo κ) + ∑ κ : Fin 1024, f (hi κ) := by
  have e : ∑ j : Fin (1024 + 1024), f j = ∑ κ : Fin 1024, f (Fin.castAdd 1024 κ) + ∑ κ : Fin 1024, f (Fin.natAdd 1024 κ) :=
    Fin.sum_univ_add (a := 1024) (b := 1024) f
  refine e.trans (congrArg₂ (· + ·) ?_ ?_)
  · exact Finset.sum_congr rfl fun κ _ => congrArg f (Fin.ext rfl)
  · exact Finset.sum_congr rfl fun κ _ => congrArg f (Fin.ext (Nat.add_comm 1024 κ.val))

/-- The one contraction over the joined axis is the two contractions over its halves: when the left matrix holds x
    in its first 1024 columns and h in its last 1024, and the right matrix is the transpose of W. -/
theorem rowDot_halves (xh : Mat 16384 2048) (wt : Mat 2048 1024) (x h : Mat 16384 1024) (W : Mat 1024 2048)
    (hx : ∀ (p : Fin 16384) (κ : Fin 1024), xh (ix2 p (lo κ)) = x (ix2 p κ))
    (hh : ∀ (p : Fin 16384) (κ : Fin 1024), xh (ix2 p (hi κ)) = h (ix2 p κ))
    (hw : ∀ (κ : Fin 2048) (q : Fin 1024), wt (ix2 κ q) = W (ix2 q κ)) (p : Fin 16384) (q : Fin 1024) :
    rowDot xh wt p q = rowDot x (wx W) p q + rowDot h (wh W) p q := by
  unfold rowDot
  rw [sum_halves]
  refine congrArg₂ (· + ·) ?_ ?_
  · exact Finset.sum_congr rfl fun κ _ => by rw [hx, hw, wx_at]
  · exact Finset.sum_congr rfl fun κ _ => by rw [hh, hw, wh_at]

end Cert.CellSpec

end
-- ==== Proof.RefCell.lean ====
/-
  The reference's result, read index by index, is the cell. Its program lays x and h side by side (entry (p, j) of
  the joined matrix is x[p, j] for j < 1024 and h[p, j − 1024] from there on), transposes the fused weight (entry
  (κ, q) of the transpose is W[q, κ]), contracts the joined axis once, adds the bias broadcast over the rows and takes
  tanh. The one contraction over 2048 columns is the two contractions over its halves.
-/
import proofs.«121592_j27049704030527_1_alg».proof.Proof.Gen.ReferenceIdeal.Read
import proofs.«121592_j27049704030527_1_alg».proof.Proof.CellSpec
import Idealize.ShloMosaic.Lib.ValueLayout

noncomputable section

open scoped BigOperators

namespace Cert.RefCell

open Cert.ReferenceIdeal Cert.ReferenceIdeal.Gen Cert.ReferenceIdeal.Read
open Idealize.ShloMosaic Idealize.ShloMosaic.ValueIdx Idealize.ShloMosaic.SageSpec Cert.CellSpec

/-- The reference's product contracts axis 1 of the joined matrix with axis 0 of the transposed weight. -/
theorem plainRef : PlainDot (n := 16384) (k := 2048) (m := 1024) dot_S16384x2048_S2048x1024_S16384x1024_1_0_0_1_n_n where
  rank := rfl
  size := fun _ => rfl
  l0 := fun i q => lhs_main_v2_0 i q
  l1 := fun i q _ => lhs_main_v2_1 i q
  r0 := fun i q _ => rhs_main_v2_0 i q
  r1 := fun i q => rhs_main_v2_1 i q

variable (x0 x1 : (⟨S16384x1024, .f32⟩ : BufTy).Contents (Elt Ideal)) (x2 : (⟨S1024x2048, .f32⟩ : BufTy).Contents (Elt Ideal))
  (x3 : (⟨S1024, .f32⟩ : BufTy).Contents (Elt Ideal))

/-- The joined matrix holds x in its first 1024 columns. -/
theorem joined_lo (p : Fin 16384) (κ : Fin 1024) : val_main_v0 (F := Ideal) x0 x1 (ix2 p (lo κ)) = x0 (ix2 p κ) := by
  unfold val_main_v0
  exact concatenate_pair_apply_left (1 : Fin 2) x0 x1 concatenates_S16384x1024_S16384x1024_S16384x2048_d1 (ix2 p (lo κ)) rfl (ix2 p κ)
    (fun b => match b with
      | ⟨0, _⟩ => rfl
      | ⟨1, _⟩ => rfl)

/-- … and h in its last 1024. -/
theorem joined_hi (p : Fin 16384) (κ : Fin 1024) : val_main_v0 (F := Ideal) x0 x1 (ix2 p (hi κ)) = x1 (ix2 p κ) := by
  unfold val_main_v0
  exact concatenate_pair_apply_right (1 : Fin 2) x0 x1 concatenates_S16384x1024_S16384x1024_S16384x2048_d1 (ix2 p (hi κ)) rfl rfl (ix2 p κ)
    (fun b hb => match b, hb with
      | ⟨0, _⟩, _ => rfl
      | ⟨1, _⟩, hb => absurd rfl hb)
    rfl

/-- The transposed weight at (κ, q) is W[q, κ]. -/
theorem weightT_at (κ : Fin 2048) (q : Fin 1024) : val_main_v1 (F := Ideal) x2 (ix2 κ q) = x2 (ix2 q κ) := by
  unfold val_main_v1
  exact transpose_ix2_apply x2 transposes_S1024x2048_S2048x1024_1_0 κ q

/-- The bias broadcast over the rows, at (p, q), is b[q]. -/
theorem bias_at (p : Fin 16384) (q : Fin 1024) : val_main_v4 (F := Ideal) x3 (ix2 p q) = x3 (ix1 q) := by
  rw [val_main_v4_apply, val_main_v3_apply]
  exact congrArg x3 (funext fun a => match a with | ⟨0, _⟩ => rfl)

/-- The reference's contraction at (p, q): the joined row against the transposed weight's column. -/
theorem dot_at (p : Fin 16384) (q : Fin 1024) :
    val_main_v2 (F := Ideal) x0 x1 x2 (ix2 p q)
      = rowDot (val_main_v0 (F := Ideal) x0 x1) (val_main_v1 (F := Ideal) x2) p q := by
  unfold val_main_v2
  exact dotGeneral_at plainRef none _ _ (ix2 p q)

/-- THE REFERENCE'S RESULT is the cell of its four arguments. -/
theorem ref_eq : val_main_v6 (F := Ideal) x0 x1 x2 x3 = cell x0 x1 x2 x3 := by
  funext i
  obtain ⟨p, q, rfl⟩ : ∃ (p : Fin 16384) (q : Fin 1024), i = ix2 p q := ⟨i 0, i 1, eq_ix2 i⟩
  rw [val_main_v6_apply, val_main_v5_apply, dot_at, bias_at, cell_at]
  rw [rowDot_halves _ _ x0 x1 x2 (joined_lo x0 x1) (joined_hi x0 x1) (weightT_at x2) p q]
  rfl

end Cert.RefCell

end
-- ==== Proof.KernelPoint.lean ====
/-
  One grid point of the kernel, read entry by entry on the extended reals. The body loads a [512 × 1024] block of x and of
  h, the two transposed weight halves whole and the bias as one row; it multiplies each block against its half into a zero
  accumulator, adds the two products, adds the bias row broadcast down the block and takes tanh. A change of float format
  is the identity on the extended reals and a shape cast to the same shape is the identity, so entry (p, q) of what is
  stored is tanh of: the x-block's row p against the first half's column q, plus the h-block's row p against the second
  half's column q, plus the bias at q.
-/
import proofs.«121592_j27049704030527_1_alg».proof.Proof.Gen.KernelIdeal.Skeleton
import proofs.«121592_j27049704030527_1_alg».proof.Proof.CellSpec
import Idealize.ShloMosaic.Lib.Pipeline.Value
import Idealize.ShloMosaic.Lib.ValueLayout

noncomputable section

open scoped BigOperators

namespace Cert.KernelPoint

open Cert.KernelIdeal Cert.KernelIdeal.Gen
open Idealize.ShloMosaic Idealize.ShloMosaic.ValueIdx Idealize.ShloMosaic.SageSpec

/-! The body's product contracts axis 1 of a block with axis 0 of a weight half: the four axis facts. -/

theorem lhs_body_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_body_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_body_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_body_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem plainBody : PlainDot (n := 512) (k := 1024) (m := 1024) dot_S512x1024_S1024x1024_S512x1024_1_0_0_1_n_n where
  rank := rfl
  size := fun _ => rfl
  l0 := fun i q => lhs_body_0 i q
  l1 := fun i q _ => lhs_body_1 i q
  r0 := fun i q _ => rhs_body_0 i q
  r1 := fun i q => rhs_body_1 i q

/-- WHAT THE BODY STORES at (p, q) of its block, from the five blocks it loads. -/
theorem stored_at (xb hb : Vec Ideal S512x1024 .f32) (w1 w2 : Vec Ideal S1024x1024 .bf16) (bb : Vec Ideal S1x1024 .f32)
    (p : Fin 512) (q : Fin 1024) :
    k0_pay1 (F := Ideal) xb hb w1 w2 bb (ix2 p q)
      = Ideal.tanh (rowDot (fun i => xb i) (fun i => w1 i) p q + rowDot (fun i => hb i) (fun i => w2 i) p q + bb (ix2 (0 : Fin 1) q)) := by
  unfold k0_pay1
  show Ideal.tanh ((FloatOps.matmul (F := Ideal) dot_S512x1024_S1024x1024_S512x1024_1_0_0_1_n_n none (truncf .bf16 xb bitsLt_bf16_f32) (shapeCast S1024x1024 w1 shapeCasts_S1024x1024_S1024x1024) (constant S512x1024 .f32 0x00000000#32) (ix2 p q)
      + FloatOps.matmul (F := Ideal) dot_S512x1024_S1024x1024_S512x1024_1_0_0_1_n_n none (truncf .bf16 hb bitsLt_bf16_f32) (shapeCast S1024x1024 w2 shapeCasts_S1024x1024_S1024x1024) (constant S512x1024 .f32 0x00000000#32) (ix2 p q))
      + broadcastTo S512x1024 (shapeCast S1x1024 (shapeCast S1x1024 bb shapeCasts_S1x1024_S1x1024) shapeCasts_S1x1024_S1x1024) broadcasts_S1x1024_S512x1024 (ix2 p q)) = _
  rw [matmul_zero_at plainBody, matmul_zero_at plainBody, broadcastTo_1b_ab_apply, shapeCast_self, shapeCast_self, shapeCast_self, shapeCast_self]
  rfl

end Cert.KernelPoint

end
-- ==== Proof.KernelEntry.lean ====
/-
  What the kernel's region finds in the three arrays the host prepares for it. The first weight operand is the slice of
  the fused weight's columns 0 … 1023, transposed (and changed to a narrower float format, which on the extended reals is
  the identity): its entry (κ, q) is W[q, κ]. The second is the same of columns 1024 … 2047: entry (κ, q) is
  W[q, 1024 + κ]. The bias operand is the bias laid as one row: entry (0, q) is b[q].
-/
import proofs.«121592_j27049704030527_1_alg».proof.Proof.Gen.KernelIdeal.Frame
import proofs.«121592_j27049704030527_1_alg».proof.Proof.CellSpec
import Idealize.ShloMosaic.Lib.StableHlo.Run
import Idealize.ShloMosaic.Lib.Pipeline.Value
import Idealize.ShloMosaic.Lib.ValueLayout

noncomputable section

namespace Cert.KernelEntry

open Cert.KernelIdeal Cert.KernelIdeal.Gen
open Idealize.ShloMosaic Idealize.ShloMosaic.TcCoe Idealize.SL.Sem Idealize.ShloMosaic.StableHlo Idealize.ShloMosaic.ValueIdx
open Cert.CellSpec

variable (m : (ℓ : Loc nD τ sig) → Buf (Elt Ideal) ℓ)

/-- The first weight operand as the region finds it: W's first 1024 columns, transposed. -/
theorem first_half (c : Dev nD) :
    V m c main_v3 = (truncf .bf16 (transpose S1024x1024 [1, 0] (extractStridedSlice S1024x1024 ![0, 0] (m ((c : Thread nD τ).loc main_arg2)) slices_S1024x2048_S1024x1024_0_0) transposes_S1024x1024_S1024x1024_1_0) bitsLt_bf16_f32 : FVec Ideal S1024x1024 .bf16) := by
  dsimp only [Gen.V, Gen.hostOps0]; after_results

/-- The second weight operand: W's last 1024 columns, transposed. -/
theorem second_half (c : Dev nD) :
    V m c main_v5 = (truncf .bf16 (transpose S1024x1024 [1, 0] (extractStridedSlice S1024x1024 ![0, 1024] (m ((c : Thread nD τ).loc main_arg2)) slices_S1024x2048_S1024x1024_0_1024) transposes_S1024x1024_S1024x1024_1_0) bitsLt_bf16_f32 : FVec Ideal S1024x1024 .bf16) := by
  dsimp only [Gen.V, Gen.hostOps0]; after_results

/-- The bias operand: the bias as one row. -/
theorem bias_row (c : Dev nD) :
    V m c main_v6 = (shapeCast S1x1024 (m ((c : Thread nD τ).loc main_arg3)) shapeCasts_S1024_S1x1024 : FVec Ideal S1x1024 .f32) := by
  dsimp only [Gen.V, Gen.hostOps0]; after_results; rfl

/-- Entry (κ, q) of the first weight operand is W[q, κ]. -/
theorem first_half_at (c : Dev nD) (κ q : Fin 1024) :
    V m c main_v3 (ix2 κ q) = m ((c : Thread nD τ).loc main_arg2) (ix2 q (lo κ)) := by
  rw [first_half]
  show transpose S1024x1024 [1, 0] (extractStridedSlice S1024x1024 ![0, 0] (m ((c : Thread nD τ).loc main_arg2)) slices_S1024x2048_S1024x1024_0_0) transposes_S1024x1024_S1024x1024_1_0 (ix2 κ q) = _
  rw [transpose_ix2_apply]
  exact slice2_axis1_apply 0 _ slices_S1024x2048_S1024x1024_0_0 q κ (lo κ) (Nat.zero_add _).symm

/-- Entry (κ, q) of the second weight operand is W[q, 1024 + κ]. -/
theorem second_half_at (c : Dev nD) (κ q : Fin 1024) :
    V m c main_v5 (ix2 κ q) = m ((c : Thread nD τ).loc main_arg2) (ix2 q (hi κ)) := by
  rw [second_half]
  show transpose S1024x1024 [1, 0] (extractStridedSlice S1024x1024 ![0, 1024] (m ((c : Thread nD τ).loc main_arg2)) slices_S1024x2048_S1024x1024_0_1024) transposes_S1024x1024_S1024x1024_1_0 (ix2 κ q) = _
  rw [transpose_ix2_apply]
  exact slice2_axis1_apply 1024 _ slices_S1024x2048_S1024x1024_0_1024 q κ (hi κ) (Nat.add_comm _ _)

/-- Entry (0, q) of the bias operand is b[q]. -/
theorem bias_row_at (c : Dev nD) (q : Fin 1024) :
    V m c main_v6 (ix2 (0 : Fin 1) q) = m ((c : Thread nD τ).loc main_arg3) (ix1 q) := by
  rw [bias_row]
  exact shapeCast_a_1a_apply _ shapeCasts_S1024_S1x1024 0 q

end Cert.KernelEntry

end
-- ==== Proof.KernelCell.lean ====
/-
  The kernel's result array is the cell of the four arguments. Grid point t (of 32) works on rows 512·t … 512·t + 511: it
  is handed block t of x and of h, the two prepared weight operands and the bias row whole, and writes back block t of the
  result. Entry (p, q) of what it writes is the cell at row 512·t + p and column q; the 32 blocks tile the 16384 rows, so the
  array after the run is the cell everywhere.
-/
import proofs.«121592_j27049704030527_1_alg».proof.Proof.Gen.KernelIdeal.Value
import proofs.«121592_j27049704030527_1_alg».proof.Proof.KernelPoint
import proofs.«121592_j27049704030527_1_alg».proof.Proof.KernelEntry

set_option maxRecDepth 16384

noncomputable section

open scoped BigOperators

namespace Cert.KernelCell

open Cert.KernelIdeal Cert.KernelIdeal.Gen Cert.KernelIdeal.Value
open Idealize.ShloMosaic Idealize.ShloMosaic.TcCoe Idealize.SL.Sem Idealize.ShloMosaic.ValueIdx Idealize.ShloMosaic.SageSpec
open Idealize.ShloMosaic.Pipeline (Dat)
open Cert.CellSpec Cert.KernelPoint Cert.KernelEntry

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: the blocks of x, of h and of the result move down with the point, one block of 512 rows
    a point; the weight operands and the bias row stay at their one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 512·t + p of the array. -/
def row (t : Fin cfg0.N) (p : Fin 512) : Fin 16384 :=
  ⟨t.val * 512 + p.val, by have ht : t.val < 32 := lt_of_lt_of_eq t.isLt N_0; have := p.isLt; omega⟩

/-- The five blocks point t loads, at their literal types. -/
abbrev xblk (c : Dev nD) (t : Fin cfg0.N) : Vec Ideal S512x1024 .f32 := iblk m c 0 t
abbrev hblk (c : Dev nD) (t : Fin cfg0.N) : Vec Ideal S512x1024 .f32 := iblk m c 1 t
abbrev w1blk (c : Dev nD) (t : Fin cfg0.N) : Vec Ideal S1024x1024 .bf16 := iblk m c 2 t
abbrev w2blk (c : Dev nD) (t : Fin cfg0.N) : Vec Ideal S1024x1024 .bf16 := iblk m c 3 t
abbrev bblk (c : Dev nD) (t : Fin cfg0.N) : Vec Ideal S1x1024 .f32 := iblk m c 4 t

/-- The argument arrays as extended-real matrices. -/
abbrev xarr (c : Dev nD) : Mat 16384 1024 := m ((c : Thread nD τ).loc main_arg0)
abbrev harr (c : Dev nD) : Mat 16384 1024 := m ((c : Thread nD τ).loc main_arg1)
abbrev warr (c : Dev nD) : Mat 1024 2048 := m ((c : Thread nD τ).loc main_arg2)
abbrev barr (c : Dev nD) : (⟨1, ![1024]⟩ : Shape).Idx → EReal := m ((c : Thread nD τ).loc main_arg3)

/-- The cell of the arguments as launched. -/
abbrev result (c : Dev nD) : Mat 16384 1024 := cell (xarr m c) (harr m c) (warr m c) (barr m c)

/-! ## The blocks read where the point's rows lie -/

theorem xblk_at (c : Dev nD) (t : Fin cfg0.N) (p : Fin 512) (κ : Fin 1024) :
    xblk m c t (ix2 p κ) = xarr m c (ix2 (row t p) κ) := by
  obtain ⟨e0, e1, -⟩ := index_maps t
  have h : ((cfg0.win 0).blk t).view.emb (ix2 p κ) = ix2 (row t p) κ := by
    funext a; apply Fin.ext
    match a with
    | ⟨0, _⟩ => show win0_0.index t (0 : Fin 2) * 512 + 1 * p.val = t.val * 512 + p.val; rw [e0, Nat.one_mul]
    | ⟨1, _⟩ => show win0_0.index t (1 : Fin 2) * 1024 + 1 * κ.val = κ.val; rw [e1]; omega
  show V m c main_arg0 (((cfg0.win 0).blk t).view.emb (ix2 p κ)) = _
  rw [h, V_main_arg0]

theorem hblk_at (c : Dev nD) (t : Fin cfg0.N) (p : Fin 512) (κ : Fin 1024) :
    hblk m c t (ix2 p κ) = harr m c (ix2 (row t p) κ) := by
  obtain ⟨-, -, e0, e1, -⟩ := index_maps t
  have h : ((cfg0.win 1).blk t).view.emb (ix2 p κ) = ix2 (row t p) κ := by
    funext a; apply Fin.ext
    match a with
    | ⟨0, _⟩ => show win0_1.index t (0 : Fin 2) * 512 + 1 * p.val = t.val * 512 + p.val; rw [e0, Nat.one_mul]
    | ⟨1, _⟩ => show win0_1.index t (1 : Fin 2) * 1024 + 1 * κ.val = κ.val; rw [e1]; omega
  show V m c main_arg1 (((cfg0.win 1).blk t).view.emb (ix2 p κ)) = _
  rw [h, V_main_arg1]

theorem w1blk_at (c : Dev nD) (t : Fin cfg0.N) (κ q : Fin 1024) :
    w1blk m c t (ix2 κ q) = warr m c (ix2 q (lo κ)) := by
  obtain ⟨-, -, -, -, e0, e1, -⟩ := index_maps t
  have h : ((cfg0.win 2).blk t).view.emb (ix2 κ q) = ix2 κ q := by
    funext a; apply Fin.ext
    match a with
    | ⟨0, _⟩ => show win0_2.index t (0 : Fin 2) * 1024 + 1 * κ.val = κ.val; rw [e0]; omega
    | ⟨1, _⟩ => show win0_2.index t (1 : Fin 2) * 1024 + 1 * q.val = q.val; rw [e1]; omega
  show V m c main_v3 (((cfg0.win 2).blk t).view.emb (ix2 κ q)) = _
  rw [h, first_half_at]

theorem w2blk_at (c : Dev nD) (t : Fin cfg0.N) (κ q : Fin 1024) :
    w2blk m c t (ix2 κ q) = warr m c (ix2 q (hi κ)) := by
  obtain ⟨-, -, -, -, -, -, e0, e1, -⟩ := index_maps t
  have h : ((cfg0.win 3).blk t).view.emb (ix2 κ q) = ix2 κ q := by
    funext a; apply Fin.ext
    match a with
    | ⟨0, _⟩ => show win0_3.index t (0 : Fin 2) * 1024 + 1 * κ.val = κ.val; rw [e0]; omega
    | ⟨1, _⟩ => show win0_3.index t (1 : Fin 2) * 1024 + 1 * q.val = q.val; rw [e1]; omega
  show V m c main_v5 (((cfg0.win 3).blk t).view.emb (ix2 κ q)) = _
  rw [h, second_half_at]

theorem bblk_at (c : Dev nD) (t : Fin cfg0.N) (q : Fin 1024) :
    bblk m c t (ix2 (0 : Fin 1) q) = barr m c (ix1 q) := by
  obtain ⟨-, -, -, -, -, -, -, -, e0, e1, -⟩ := index_maps t
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; rw [e0]
    | ⟨1, _⟩ => show win0_4.index t (1 : Fin 2) * 1024 + 1 * q.val = q.val; rw [e1]; omega
  show V m c main_v6 (((cfg0.win 4).blk t).view.emb (ix2 (0 : Fin 1) q)) = _
  rw [h, bias_row_at]

/-! ## One point's entry is the cell's -/

/-- Entry (p, q) of what point t stores is the cell at row 512·t + p, column q. -/
theorem point_value (c : Dev nD) (t : Fin cfg0.N) (p : Fin 512) (q : Fin 1024) :
    k0_pay1 (F := Ideal) (xblk m c t) (hblk m c t) (w1blk m c t) (w2blk m c t) (bblk m c t) (ix2 p q)
      = result m c (ix2 (row t p) q) := by
  refine (stored_at (xblk m c t) (hblk m c t) (w1blk m c t) (w2blk m c t) (bblk m c t) p q).trans ?_
  show _ = Ideal.tanh (rowDot (xarr m c) (wx (warr m c)) (row t p) q + rowDot (harr m c) (wh (warr m c)) (row t p) q + barr m c (ix1 q))
  refine congrArg Ideal.tanh (congrArg₂ (· + ·) (congrArg₂ (· + ·) ?_ ?_) (bblk_at m c t q))
  · exact Finset.sum_congr rfl fun κ _ => congrArg₂ (· * ·) (xblk_at m c t p κ) (w1blk_at m c t κ q)
  · exact Finset.sum_congr rfl fun κ _ => congrArg₂ (· * ·) (hblk_at m c t p κ) (w2blk_at m c t κ q)

/-! ## From the blocks to the array -/

/-- WHAT POINT t WRITES BACK is block t of the cell. -/
theorem flushed_eq (c : Dev nD) (t : Fin cfg0.N) :
    (dats m 0 c).flushed 5 t = ((cfg0.win 5).blk t).view.read (Elt Ideal) (result m c) := by
  rw [flushed5]
  unfold out0_5
  rw [View.canon_unit_zero zero_offsets]
  simp only [View.ld_unit_zero (S := S512x1024) zero_offsets, View.ld_unit_zero (S := S1024x1024) zero_offsets, View.ld_unit_zero (S := S1x1024) zero_offsets]
  obtain ⟨-, -, -, -, -, -, -, -, -, -, e0, e1⟩ := index_maps t
  funext j
  obtain ⟨p, q, rfl⟩ : ∃ (p : Fin 512) (q : Fin 1024), j = ix2 p q := ⟨j 0, j 1, eq_ix2 j⟩
  have h : ((cfg0.win 5).blk t).view.emb (ix2 p q) = ix2 (row t p) q := by
    funext a; apply Fin.ext
    match a with
    | ⟨0, _⟩ => show win0_5.index t (0 : Fin 2) * 512 + 1 * p.val = t.val * 512 + p.val; rw [e0, Nat.one_mul]
    | ⟨1, _⟩ => show win0_5.index t (1 : Fin 2) * 1024 + 1 * q.val = q.val; rw [e1]; omega
  show k0_pay1 (F := Ideal) (xblk m c t) (hblk m c t) (w1blk m c t) (w2blk m c t) (bblk m c t) (ix2 p q)
    = result m c (((cfg0.win 5).blk t).view.emb (ix2 p q))
  rw [h]
  exact point_value m c t p q

/-- An index of the array is in point t's block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v7).slice (win0_5.rect t)).set ↔ _
  rw [View.set_slice_whole, Rect.mem_set_unit]
  exact Iff.rfl

/-- Every row lies in some point's block: row r in point r / 512's. -/
theorem covered (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  let t : Fin cfg0.N := ⟨(i 0).val / 512, lt_of_lt_of_eq (by omega : (i 0).val / 512 < 32) N_0.symm⟩
  obtain ⟨-, -, -, -, -, -, -, -, -, -, e0, e1⟩ := index_maps t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- THE ARRAY after the run is the cell of the arguments. -/
theorem final (c : Dev nD) : (dats m 0 c).arrAt 5 cfg0.N = result m c :=
  (dats m 0 c).arrAt_eq_of_cover 5 (result m c) (fun t _ => flushed_eq m c t) covered

/-- The kernel's run: every weakly fair execution terminates with the result array at the cell of the arguments and
    the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelCell

end
-- ==== Proof.lean ====
/- The proof of `Cert.Claim`: a recurrent cell, tanh (x · Wxᵀ + h · Whᵀ + b), computed two ways.
   The kernel multiplies each 512-row block of x and of h against its own transposed half of the fused weight, adds the
   two products and the bias and takes tanh; the reference joins x and h side by side, contracts the joined axis once
   against the whole transposed weight, adds the bias and takes tanh. On the extended reals a change of float format is
   the identity, a product into a zero accumulator is the plain sum of products, and a sum over 2048 terms is the sum over
   its first 1024 plus the sum over its last 1024 (addition there is commutative and associative, infinities included),
   so both programs end with ONE function of the four arguments, `Cert.CellSpec.cell`: the kernel's side is
   Proof/KernelCell.lean (one grid point in Proof/KernelPoint.lean, the host-prepared operands in Proof/KernelEntry.lean),
   the reference's Proof/RefCell.lean. The three frames are the generated ones (the reference's its generated run with
   the result dropped); the idealization rewrote nothing, so `preserves` is `True`. -/
import proofs.«121592_j27049704030527_1_alg».proof.Defs
import proofs.«121592_j27049704030527_1_alg».proof.Proof.Gen.Kernel
import proofs.«121592_j27049704030527_1_alg».proof.Proof.Gen.Kernel.Skeleton
import proofs.«121592_j27049704030527_1_alg».proof.Proof.Gen.Kernel.Launch
import proofs.«121592_j27049704030527_1_alg».proof.Proof.Gen.Kernel.Points
import proofs.«121592_j27049704030527_1_alg».proof.Proof.Gen.Kernel.Frame
import proofs.«121592_j27049704030527_1_alg».proof.Proof.Gen.KernelIdeal
import proofs.«121592_j27049704030527_1_alg».proof.Proof.Gen.KernelIdeal.Skeleton
import proofs.«121592_j27049704030527_1_alg».proof.Proof.Gen.KernelIdeal.Launch
import proofs.«121592_j27049704030527_1_alg».proof.Proof.Gen.KernelIdeal.Points
import proofs.«121592_j27049704030527_1_alg».proof.Proof.Gen.KernelIdeal.Frame
import proofs.«121592_j27049704030527_1_alg».proof.Proof.Gen.ReferenceIdeal
import proofs.«121592_j27049704030527_1_alg».proof.Proof.Gen.Pre_finite_inputs
import proofs.«121592_j27049704030527_1_alg».proof.Proof.Gen.KernelIdeal.Value
import proofs.«121592_j27049704030527_1_alg».proof.Proof.Gen.ReferenceIdeal.Run
import proofs.«121592_j27049704030527_1_alg».proof.Proof.Gen.ReferenceIdeal.Read
import proofs.«121592_j27049704030527_1_alg».proof.Proof.RefCell
import proofs.«121592_j27049704030527_1_alg».proof.Proof.KernelCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at the cell
    of those arguments. -/
theorem algebraic : Cert.algebraic_KernelIdeal_ReferenceIdeal := by
  intro m ρ m' ρ' _ hagree
  refine ⟨fun c => Cert.KernelCell.result m c, Cert.KernelCell.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefCell.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
